-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x34 : Shape := ⟨2, ![32768, 34]⟩
abbrev S1x34x1024 : Shape := ⟨3, ![1, 34, 1024]⟩
abbrev S1x1024 : Shape := ⟨2, ![1, 1024]⟩
abbrev S_ : Shape := ⟨0, ![]⟩

class Facts : Prop where
  bcast_S_S32768x34 : S_.BroadcastsInDim S32768x34 (![] : Fin 0 → Fin S32768x34.rank)
  reducesTo_S32768x34_S_d0_1 : S32768x34.ReducesTo [0, 1] S_
  h_S_ : 0 < S_.numel
  bcast_S_S1x34x1024 : S_.BroadcastsInDim S1x34x1024 (![] : Fin 0 → Fin S1x34x1024.rank)
  reducesTo_S1x34x1024_S_d0_1_2 : S1x34x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S32768x34 .f32) (main_arg1 : FVec F S32768x34 .f32) (main_arg2 : FVec F S1x34x1024 .f32) (main_arg3 : FVec F S1x1024 .f32) : IVec S_ 1 :=
  let main_v0 : FVec F S32768x34 .f32 := Host.absf main_arg0
  let main_cst : FVec F S_ .f32 := constant S_ .f32 0x7F800000#32
  let main_v1 : FVec F S32768x34 .f32 := broadcastInDim S32768x34 ![] bcast_S_S32768x34 main_cst
  let main_v2 : IVec S32768x34 1 := cmpf .olt main_v0 main_v1
  let main_c : IVec S_ 1 := constantI S_ 1 1#1
  let main_v3 : IVec S_ 1 := (fun x v => Host.reduce IntOp.andi x v reducesTo_S32768x34_S_d0_1 h_S_) main_v2 main_c
  let main_v4 : FVec F S32768x34 .f32 := Host.absf main_arg1
  let main_cst_0 : FVec F S_ .f32 := constant S_ .f32 0x7F800000#32
  let main_v5 : FVec F S32768x34 .f32 := broadcastInDim S32768x34 ![] bcast_S_S32768x34 main_cst_0
  let main_v6 : IVec S32768x34 1 := cmpf .olt main_v4 main_v5
  let main_c_1 : IVec S_ 1 := constantI S_ 1 1#1
  let main_v7 : IVec S_ 1 := (fun x v => Host.reduce IntOp.andi x v reducesTo_S32768x34_S_d0_1 h_S_) main_v6 main_c_1
  let main_v8 : IVec S_ 1 := andi main_v3 main_v7
  let main_v9 : FVec F S1x34x1024 .f32 := Host.absf main_arg2
  let main_cst_2 : FVec F S_ .f32 := constant S_ .f32 0x7F800000#32
  let main_v10 : FVec F S1x34x1024 .f32 := broadcastInDim S1x34x1024 ![] bcast_S_S1x34x1024 main_cst_2
  let main_v11 : IVec S1x34x1024 1 := cmpf .olt main_v9 main_v10
  let main_c_3 : IVec S_ 1 := constantI S_ 1 1#1
  let main_v12 : IVec S_ 1 := (fun x v => Host.reduce IntOp.andi x v reducesTo_S1x34x1024_S_d0_1_2 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Kernel.lean ====
abbrev S32768x34 : Shape := ⟨2, ![32768, 34]⟩
abbrev S1x34x1024 : Shape := ⟨3, ![1, 34, 1024]⟩
abbrev S1x1024 : Shape := ⟨2, ![1, 1024]⟩
abbrev S34x1024 : Shape := ⟨2, ![34, 1024]⟩
abbrev S32768x1024 : Shape := ⟨2, ![32768, 1024]⟩
abbrev S2048x34 : Shape := ⟨2, ![2048, 34]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S32768x34, .f32⟩
  | .hbm, ⟨1, _⟩ => ⟨S32768x34, .f32⟩
  | .hbm, ⟨2, _⟩ => ⟨S1x34x1024, .f32⟩
  | .hbm, ⟨3, _⟩ => ⟨S1x1024, .f32⟩
  | .hbm, ⟨4, _⟩ => ⟨S34x1024, .f32⟩
  | .hbm, ⟨5, _⟩ => ⟨S34x1024, .bf16⟩
  | .hbm, ⟨6, _⟩ => ⟨S32768x1024, .f32⟩
  | .local _ .vmem, ⟨0, _⟩ => ⟨S2048x34, .f32⟩
  | .local _ .vmem, ⟨1, _⟩ => ⟨S2048x34, .f32⟩
  | .local _ .vmem, ⟨2, _⟩ => ⟨S2048x34, .f32⟩
  | .local _ .vmem, ⟨3, _⟩ => ⟨S2048x34, .f32⟩
  | .local _ .vmem, ⟨4, _⟩ => ⟨S34x1024, .bf16⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S32768x34, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x34 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x34 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S34x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x34x1024_S34x1024 : S1x34x1024.ShapeCasts S34x1024
  bitsLt_bf16_f32 : FTy.bits .bf16 < FTy.bits .f32
  inb_S2048x34_S2048x34_0_0 : ∀ a, (![0, 0] : Fin 2 → Nat) a + S2048x34.size a ≤ S2048x34.size a
  h_S2048x34 : 0 < S2048x34.numel
  inb_S34x1024_S34x1024_0_0 : ∀ a, (![0, 0] : Fin 2 → Nat) a + S34x1024.size a ≤ S34x1024.size a
  h_S34x1024 : 0 < S34x1024.numel
  shapeCasts_S34x1024_S34x1024 : S34x1024.ShapeCasts S34x1024
  inb_S1x1024_S1x1024_0_0 : ∀ a, (![0, 0] : Fin 2 → Nat) a + S1x1024.size a ≤ S1x1024.size a
  h_S1x1024 : 0 < S1x1024.numel
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x34_S34x1024_S2048x1024_1_0_0_1_n_n_wf : DotDims.WF S2048x34 S34x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x34.size a ≤ S32768x34.size a
  hwx0_0 : ∀ i : grid0.Coords, EltTy.bits .f32 = 32 ∨ (Rect.block (s := S32768x34) S2048x34.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x34.size a ≤ S32768x34.size a
  hwx0_1 : ∀ i : grid0.Coords, EltTy.bits .f32 = 32 ∨ (Rect.block (s := S32768x34) S2048x34.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S34x1024.size a ≤ S34x1024.size a
  hwx0_2 : ∀ i : grid0.Coords, EltTy.bits .bf16 = 32 ∨ (Rect.block (s := S34x1024) S34x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S32768x1024.size a
  hwx0_4 : ∀ i : grid0.Coords, EltTy.bits .f32 = 32 ∨ (Rect.block (s := S32768x1024) S2048x1024.size (cc0_transform_4 i) (hinb0_4 i)).WholeWords (EltTy.packing .f32)

variable [Facts₀]

def dot_S2048x34_S34x1024_S2048x1024_1_0_0_1_n_n : DotDims S2048x34 S34x1024 S2048x1024 where
  lhsContracting := [1]
  rhsContracting := [0]
  lhsNonContracting := [0]
  rhsNonContracting := [1]
  lhsBatch := []
  rhsBatch := []
  wf := dot_S2048x34_S34x1024_S2048x1024_1_0_0_1_n_n_wf

abbrev win0_0 : Pipeline.Window sig grid0 :=
  Pipeline.Window.ofSpec (Memref.whole main_arg1) S2048x34.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x34.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S34x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x34 : Shape := ⟨2, ![32768, 34]⟩
abbrev S1x34x1024 : Shape := ⟨3, ![1, 34, 1024]⟩
abbrev S1x1024 : Shape := ⟨2, ![1, 1024]⟩
abbrev S34x1024 : Shape := ⟨2, ![34, 1024]⟩
abbrev S32768x1024 : Shape := ⟨2, ![32768, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x34, .f32⟩
  | .hbm, ⟨1, _⟩ => ⟨S32768x34, .f32⟩
  | .hbm, ⟨2, _⟩ => ⟨S1x34x1024, .f32⟩
  | .hbm, ⟨3, _⟩ => ⟨S1x1024, .f32⟩
  | .hbm, ⟨4, _⟩ => ⟨S32768x34, .f32⟩
  | .hbm, ⟨5, _⟩ => ⟨S34x1024, .f32⟩
  | .hbm, ⟨6, _⟩ => ⟨S32768x1024, .f32⟩
  | .hbm, ⟨7, _⟩ => ⟨S32768x1024, .f32⟩
  | .hbm, ⟨8, _⟩ => ⟨S32768x1024, .f32⟩
  | _, _ => ⟨S32768x34, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  shapeCasts_S1x34x1024_S34x1024 : S1x34x1024.ShapeCasts S34x1024
  bcast_S1x1024_S32768x1024_0_1 : S1x1024.BroadcastsInDim S32768x1024 (![0, 1] : Fin 2 → Fin S32768x1024.rank)
  dot_S32768x34_S34x1024_S32768x1024_1_0_0_1_n_n_wf : DotDims.WF S32768x34 S34x1024 S32768x1024 [1] [0] [0] [1] [] []

variable [Facts₀]

def dot_S32768x34_S34x1024_S32768x1024_1_0_0_1_n_n : DotDims S32768x34 S34x1024 S32768x1024 where
  lhsContracting := [1]
  rhsContracting := [0]
  lhsNonContracting := [0]
  rhsNonContracting := [1]
  lhsBatch := []
  rhsBatch := []
  wf := dot_S32768x34_S34x1024_S32768x1024_1_0_0_1_n_n_wf

class Facts : Prop extends Facts₀ where

variable [Facts]
-- ==== Proof.Spec.lean ====
/-
  The result both programs compute, as one function of the four argument arrays, entry by entry.

  For a batch of 32768 rows of 34 features, a row-wise gate of the same shape, a 34-by-1024 weight and a
  single bias row: entry (r, o) of the result is the sum over the 34 features k of
  (x (r, k) * gate (r, k)) * weight (k, o), plus bias (0, o).  The product x * gate is taken first, then the
  product with the weight, and the 34 terms are summed before the bias is added: this is the grouping both
  programs use, so no law of the extended reals beyond 0 + a = a is needed to compare them.
-/
import Idealize.ShloMosaic.Lib.ValueIdx

noncomputable section

open scoped BigOperators

namespace GatedLinear

open Idealize.ShloMosaic Idealize.ShloMosaic.ValueIdx

/-- Entry (r, o) of the gated linear map: the gated row r contracted with column o of the weight, plus the bias at o. -/
def out (x gate : FVec Ideal ⟨2, ![32768, 34]⟩ .f32) (w : FVec Ideal ⟨2, ![34, 1024]⟩ .f32)
    (b : FVec Ideal ⟨2, ![1, 1024]⟩ .f32) : FVec Ideal ⟨2, ![32768, 1024]⟩ .f32 :=
  fun i => (∑ k : Fin 34, (x (ix2 (i 0) k) * gate (ix2 (i 0) k)) * w (ix2 k (i 1))) + b (ix2 (0 : Fin 1) (i 1))

/-- The same, read at the entry with row r and column o. -/
theorem out_apply (x gate : FVec Ideal ⟨2, ![32768, 34]⟩ .f32) (w : FVec Ideal ⟨2, ![34, 1024]⟩ .f32)
    (b : FVec Ideal ⟨2, ![1, 1024]⟩ .f32) (r : Fin 32768) (o : Fin 1024) :
    out x gate w b (ix2 r o) = (∑ k : Fin 34, (x (ix2 r k) * gate (ix2 r k)) * w (ix2 k o)) + b (ix2 (0 : Fin 1) o) := rfl

end GatedLinear

end
-- ==== Proof.RefIsSpec.lean ====
/-
  The reference's result is the gated linear map of its arguments.

  The reference multiplies x by the gate entry by entry, drops the weight's leading unit axis, takes the matrix product
  of the two, and adds the bias row broadcast down the 32768 rows.  Read at entry (r, o), stage by stage, this is the
  sum over the 34 features k of (x (r, k) * gate (r, k)) * weight (k, o), plus bias (0, o), with the weight read through
  the same reshape the kernel's program applies before its region.
-/
import proofs.«402139_j46505905881421_3_alg».proof.Proof.Gen.ReferenceIdeal.Read
import proofs.«402139_j46505905881421_3_alg».proof.Proof.Spec

noncomputable section

open scoped BigOperators

namespace Cert.ReferenceIdeal.Hand

open Cert.ReferenceIdeal Cert.ReferenceIdeal.Read Idealize.ShloMosaic Idealize.ShloMosaic.ValueIdx

/-- The reference's last stage, as a function of the four arguments, is the gated linear map of x (its second
    argument), the gate (its first), the reshaped weight and the bias. -/
theorem result_eq (x0 x1 : (⟨S32768x34, .f32⟩ : BufTy).Contents (Elt Ideal)) (x2 : (⟨S1x34x1024, .f32⟩ : BufTy).Contents (Elt Ideal))
    (x3 : (⟨S1x1024, .f32⟩ : BufTy).Contents (Elt Ideal)) :
    val_main_v4 (F := Ideal) x0 x1 x2 x3 = GatedLinear.out x1 x0 (val_main_v1 (F := Ideal) x2) x3 := by
  funext i
  obtain ⟨r, o, rfl⟩ : ∃ (r : Fin 32768) (o : Fin 1024), i = ix2 r o := ⟨i 0, i 1, eq_ix2 i⟩
  rw [val_main_v4_apply, val_main_v2_apply, val_main_v3_apply, GatedLinear.out_apply]
  have el : ∀ k : Fin 34, lidx_main_v2 (ix2 r o) k = ix2 r k := fun k => funext fun a => by
    match a with
    | ⟨0, _⟩ => rfl
    | ⟨1, _⟩ => rfl
  have er : ∀ k : Fin 34, ridx_main_v2 (ix2 r o) k = ix2 k o := fun k => funext fun a => by
    match a with
    | ⟨0, _⟩ => rfl
    | ⟨1, _⟩ => rfl
  have eb : idx_main_v3 (ix2 r o) = ix2 (0 : Fin 1) o := funext fun a => by
    match a with
    | ⟨0, _⟩ => rfl
    | ⟨1, _⟩ => rfl
  simp only [el, er, eb, val_main_v0_apply]
  rfl

end Cert.ReferenceIdeal.Hand

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.Payload.lean ====
/-
  The kernel body's one stored value, read at an entry of the output block.

  The body multiplies its block of x by its block of the gate entry by entry, contracts the product with the whole
  34-by-1024 weight (a matrix product accumulated into zero), and adds the single bias row broadcast down the 2048
  rows.  At the exact values the narrowing of the product to the shorter float format changes nothing, the cast of
  the weight to its own shape is the identity, and a product accumulated into zero is the bare sum.  So entry (p, q)
  of the stored value is the sum over the 34 features k of (x (p, k) * gate (p, k)) * weight (k, q), plus bias (0, q).
-/
import proofs.«402139_j46505905881421_3_alg».proof.Proof.Gen.KernelIdeal.Skeleton
import proofs.«402139_j46505905881421_3_alg».proof.Proof.LibPlainDot
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx

/-- The bias row broadcast down the rows of the block, at entry (p, q), is the bias at column q. -/
theorem bias_row (v : FVec Ideal S1x1024 .f32) (p : Fin 2048) (q : Fin 1024) :
    broadcastTo S2048x1024 v broadcasts_S1x1024_S2048x1024 (ix2 p q) = v (ix2 (0 : Fin 1) q) :=
  broadcastTo_apply v broadcasts_S1x1024_S2048x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])

/-- The body's matrix product, at entry (p, q): rows of the gated block against columns of the weight. -/
theorem product_apply (l : FVec Ideal S2048x34 .bf16) (r : FVec Ideal S34x1024 .bf16) (p : Fin 2048) (q : Fin 1024) :
    matmul dot_S2048x34_S34x1024_S2048x1024_1_0_0_1_n_n none l r (constant S2048x1024 .f32 0x00000000#32) (ix2 p q)
      = ∑ k : Fin 34, l (ix2 p k) * r (ix2 k q) :=
  PlainDot.matmul_zero_plain_apply (M := 2048) (K := 34) (N := 1024) none l r (ix2 p q)

/-- THE STORED VALUE AT AN ENTRY: the gated row p contracted with column q of the weight, plus the bias at q. -/
theorem pay_apply (v0 v1 : Vec Ideal S2048x34 .f32) (v4 : Vec Ideal S34x1024 .bf16) (v7 : Vec Ideal S1x1024 .f32)
    (p : Fin 2048) (q : Fin 1024) :
    k0_pay1 (F := Ideal) v0 v1 v4 v7 (ix2 p q)
      = (∑ k : Fin 34, (v0 (ix2 p k) * v1 (ix2 p k)) * v4 (ix2 k q)) + v7 (ix2 (0 : Fin 1) q) := by
  unfold k0_pay1
  show matmul (F := Ideal) dot_S2048x34_S34x1024_S2048x1024_1_0_0_1_n_n none (truncf (F := Ideal) .bf16 (mulf (F := Ideal) v0 v1) bitsLt_bf16_f32)
        (shapeCast S34x1024 v4 shapeCasts_S34x1024_S34x1024) (constant (F := Ideal) S2048x1024 .f32 0x00000000#32) (ix2 p q)
      + broadcastTo S2048x1024 v7 broadcasts_S1x1024_S2048x1024 (ix2 p q) = _
  rw [bias_row, shapeCast_self, product_apply]
  rfl

end Cert.KernelIdeal.Body

end
-- ==== Proof.Blocks.lean ====
/-
  The kernel's result array, from the blocks the sixteen grid points write back.

  Point t stages rows 2048 t … 2048 t + 2047 of x and of the gate, the whole weight (reshaped and narrowed by the
  program before the region; the narrowing is the identity at the exact values) and the whole bias row, and writes
  back rows 2048 t … 2048 t + 2047 of the result.  Entry (p, q) of what it writes is the gated linear map at entry
  (2048 t + p, q) of the whole arrays, because that entry depends only on row 2048 t + p of x and of the gate.  The
  sixteen row blocks tile the 32768 rows (row r lies in block r / 2048), so after the run the result array is the
  gated linear map of the arguments.
-/
import proofs.«402139_j46505905881421_3_alg».proof.Proof.Gen.KernelIdeal.Value
import proofs.«402139_j46505905881421_3_alg».proof.Proof.Payload
import proofs.«402139_j46505905881421_3_alg».proof.Proof.Spec
import Idealize.ShloMosaic.Lib.Pipeline.Value
import Idealize.ShloMosaic.Lib.StableHlo.Run
import Idealize.ShloMosaic.Lib.Tactic

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The weight as a 34-by-1024 matrix: the argument with its leading unit axis dropped. -/
abbrev weight (c : Dev nD) : FVec Ideal S34x1024 .f32 :=
  shapeCast S34x1024 (m ((c : Thread nD τ).loc main_arg2)) shapeCasts_S1x34x1024_S34x1024

/-- What the region finds in the weight's buffer: the reshaped argument (its narrowing changes no exact value). -/
theorem V_weight (c : Dev nD) : (V m c main_v1 : S34x1024.Idx → EReal) = weight m c := by
  dsimp only [V, hostOps0]; after_results; rfl

/-- The result: the gated linear map of x, the gate, the reshaped weight and the bias. -/
abbrev result (c : Dev nD) : Buf (Elt Ideal) ((c : Thread nD τ).loc main_v2) :=
  GatedLinear.out (m ((c : Thread nD τ).loc main_arg1)) (m ((c : Thread nD τ).loc main_arg0)) (weight m c)
    (m ((c : Thread nD τ).loc main_arg3))

/-- The block indices, decided over the sixteen points: the row-blocked windows are at block t, the whole ones at 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Entry (p, k) of point t's block of x is entry (2048 t + p, k) of x. -/
theorem xblk_apply (c : Dev nD) (t : Fin cfg0.N) (p : Fin 2048) (k : Fin 34) (r : Fin 32768)
    (hr : r.val = t.val * 2048 + p.val) :
    (iblk m c 0 t : Vec Ideal S2048x34 .f32) (ix2 p k)
      = (m ((c : Thread nD τ).loc main_arg1) : S32768x34.Idx → EReal) (ix2 r k) := by
  obtain ⟨e0, e1, -⟩ := block_indices t
  unfold iblk
  rw [View.read_apply]
  show V m c main_arg1 _ = _
  rw [V_main_arg1]
  congr 1
  funext a
  apply Fin.ext
  match a with
  | ⟨0, _⟩ => show win0_0.index t (0 : Fin 2) * 2048 + 1 * p.val = r.val; omega
  | ⟨1, _⟩ => show win0_0.index t (1 : Fin 2) * 34 + 1 * k.val = k.val; omega

/-- Entry (p, k) of point t's block of the gate is entry (2048 t + p, k) of the gate. -/
theorem gblk_apply (c : Dev nD) (t : Fin cfg0.N) (p : Fin 2048) (k : Fin 34) (r : Fin 32768)
    (hr : r.val = t.val * 2048 + p.val) :
    (iblk m c 1 t : Vec Ideal S2048x34 .f32) (ix2 p k)
      = (m ((c : Thread nD τ).loc main_arg0) : S32768x34.Idx → EReal) (ix2 r k) := by
  obtain ⟨-, -, e0, e1, -⟩ := block_indices t
  unfold iblk
  rw [View.read_apply]
  show V m c main_arg0 _ = _
  rw [V_main_arg0]
  congr 1
  funext a
  apply Fin.ext
  match a with
  | ⟨0, _⟩ => show win0_1.index t (0 : Fin 2) * 2048 + 1 * p.val = r.val; omega
  | ⟨1, _⟩ => show win0_1.index t (1 : Fin 2) * 34 + 1 * k.val = k.val; omega

/-- Every point's block of the weight is the whole reshaped weight. -/
theorem wblk_apply (c : Dev nD) (t : Fin cfg0.N) (k : Fin 34) (q : Fin 1024) :
    (iblk m c 2 t : Vec Ideal S34x1024 .bf16) (ix2 k q) = weight m c (ix2 k q) := by
  obtain ⟨-, -, -, -, e0, e1, -⟩ := block_indices t
  unfold iblk
  rw [View.read_apply]
  show V m c main_v1 _ = _
  rw [V_weight]
  congr 1
  funext a
  apply Fin.ext
  match a with
  | ⟨0, _⟩ => show win0_2.index t (0 : Fin 2) * 34 + 1 * k.val = k.val; omega
  | ⟨1, _⟩ => show win0_2.index t (1 : Fin 2) * 1024 + 1 * q.val = q.val; omega

/-- Every point's block of the bias is the whole bias row. -/
theorem bblk_apply (c : Dev nD) (t : Fin cfg0.N) (q : Fin 1024) :
    (iblk m c 3 t : Vec Ideal S1x1024 .f32) (ix2 (0 : Fin 1) q)
      = (m ((c : Thread nD τ).loc main_arg3) : S1x1024.Idx → EReal) (ix2 (0 : Fin 1) q) := by
  obtain ⟨-, -, -, -, -, -, e0, e1, -⟩ := block_indices t
  unfold iblk
  rw [View.read_apply]
  show V m c main_arg3 _ = _
  rw [V_main_arg3]
  congr 1
  funext a
  apply Fin.ext
  match a with
  | ⟨0, _⟩ => show win0_3.index t (0 : Fin 2) * 1 + 1 * 0 = 0; omega
  | ⟨1, _⟩ => show win0_3.index t (1 : Fin 2) * 1024 + 1 * q.val = q.val; omega

/-- What point t stores at entry (p, q) of its output block is the result at entry (2048 t + p, q). -/
theorem point_eq (c : Dev nD) (t : Fin cfg0.N) (p : Fin 2048) (q : Fin 1024) (r : Fin 32768)
    (hr : r.val = t.val * 2048 + p.val) :
    k0_pay1 (F := Ideal) (iblk m c 0 t) (iblk m c 1 t) (iblk m c 2 t) (iblk m c 3 t) (ix2 p q)
      = result m c (ix2 r q) := by
  refine (Body.pay_apply (iblk m c 0 t) (iblk m c 1 t) (iblk m c 2 t) (iblk m c 3 t) p q).trans ?_
  show _ = GatedLinear.out (m ((c : Thread nD τ).loc main_arg1)) (m ((c : Thread nD τ).loc main_arg0)) (weight m c)
    (m ((c : Thread nD τ).loc main_arg3)) (ix2 r q)
  rw [GatedLinear.out_apply, bblk_apply m c t q]
  refine congrArg (· + _) (Finset.sum_congr rfl fun k _ => ?_)
  rw [xblk_apply m c t p k r hr, gblk_apply m c t p k r hr, wblk_apply m c t k q]

/-- What point t stores, as a function of the entry of its block: the result at the entry 2048 t rows further down. -/
theorem stored_eq (c : Dev nD) (t : Fin cfg0.N) (ht : t.val < 16) :
    (k0_pay1 (F := Ideal) (iblk m c 0 t) (iblk m c 1 t) (iblk m c 2 t) (iblk m c 3 t) : Vec Ideal S2048x1024 .f32)
      = fun y => result m c (ix2 (⟨t.val * 2048 + (y 0).val, by have h : (y 0).val < 2048 := (y 0).isLt; omega⟩ : Fin 32768) (y 1)) := by
  funext y
  obtain ⟨p, q, rfl⟩ : ∃ (p : Fin 2048) (q : Fin 1024), y = ix2 p q := ⟨y 0, y 1, eq_ix2 y⟩
  exact point_eq m c t p q _ rfl

/-- WHAT POINT t WRITES BACK is its row block of the result. -/
theorem flushed_eq (c : Dev nD) (t : Fin cfg0.N) :
    (dats m 0 c).flushed 4 t = ((cfg0.win 4).blk t).view.read (Elt Ideal) (result m c) := by
  have hN : cfg0.N = 16 := N_0
  have ht : t.val < 16 := hN ▸ t.isLt
  rw [Value.flushed4]
  unfold out0_4
  rw [View.canon_unit_zero zero_offsets]
  simp only [View.ld_unit_zero (S := S2048x34) zero_offsets, View.ld_unit_zero (S := S34x1024) zero_offsets,
    View.ld_unit_zero (S := S1x1024) zero_offsets]
  rw [stored_eq m c t ht]
  obtain ⟨-, -, -, -, -, -, -, -, e0, e1⟩ := block_indices t
  funext j
  show result m c (ix2 (⟨t.val * 2048 + (j 0).val, _⟩ : Fin 32768) (j 1)) = result m c (((cfg0.win 4).blk t).view.emb j)
  congr 1
  funext a
  apply Fin.ext
  match a with
  | ⟨0, _⟩ => show t.val * 2048 + (j 0).val = win0_4.index t (0 : Fin 2) * 2048 + 1 * (j 0).val; omega
  | ⟨1, _⟩ => show (j 1).val = win0_4.index t (1 : Fin 2) * 1024 + 1 * (j 1).val; omega

/-- An index of the result array is in point t's block iff each coordinate is in the block's range on its axis. -/
theorem mem_blk (t : Fin cfg0.N) (i : S32768x1024.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v2).slice (win0_4.rect t)).set ↔ _
  rw [View.set_slice_whole, Rect.mem_set_unit]
  exact Iff.rfl

/-- Every entry of the result array lies in some point's block: row r in block r / 2048. -/
theorem cover (i : S32768x1024.Idx) :
    ∃ t : Fin cfg0.N, (cfg0.win 4).flush t = true ∧ i ∈ ((cfg0.win 4).blk t).view.set := by
  have hi0 : (i 0).val < 32768 := (i 0).isLt
  have hi1 : (i 1).val < 1024 := (i 1).isLt
  have hN : cfg0.N = 16 := N_0
  refine ⟨⟨(i 0).val / 2048, by rw [hN]; omega⟩, flush0_4 _, ?_⟩
  rw [mem_blk]
  obtain ⟨-, -, -, -, -, -, -, -, e0, e1⟩ := block_indices ⟨(i 0).val / 2048, by rw [hN]; omega⟩
  intro a
  match a with
  | ⟨0, _⟩ =>
    show win0_4.index _ (0 : Fin 2) * 2048 ≤ (i 0).val ∧ (i 0).val < win0_4.index _ (0 : Fin 2) * 2048 + 2048
    rw [e0]; show (i 0).val / 2048 * 2048 ≤ (i 0).val ∧ (i 0).val < (i 0).val / 2048 * 2048 + 2048; omega
  | ⟨1, _⟩ =>
    show win0_4.index _ (1 : Fin 2) * 1024 ≤ (i 1).val ∧ (i 1).val < win0_4.index _ (1 : Fin 2) * 1024 + 1024
    rw [e1]; omega

/-- THE RESULT ARRAY after the run is the gated linear map of the arguments. -/
theorem final (c : Dev nD) : (dats m 0 c).arrAt 4 cfg0.N = result m c :=
  (dats m 0 c).arrAt_eq_of_cover 4 (result m c) (fun t _ => flushed_eq m c t) cover

/-- The run, read: the result array at the gated linear map of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Hand

end
-- ==== Proof.lean ====
/-
  The gated linear layer: out (r, o) = sum over the 34 features k of (x (r, k) * gate (r, k)) * weight (0, k, o),
  plus bias (0, o), for 32768 rows and 1024 output columns.

  The kernel computes it sixteen row blocks at a time: each grid point multiplies its 2048 rows of x and of the gate
  entry by entry, contracts the product with the whole weight by one matrix product accumulated into zero, and adds
  the bias row.  The reference computes the same product of whole arrays, one matrix product and one broadcast bias.
  At the exact values a change of float format is the identity and a product accumulated into zero is the bare sum,
  so both programs compute, entry by entry, the same sum of the same 34 terms in the same grouping, plus the same
  bias: no law of the extended reals is needed beyond 0 + a = a, and the finiteness of the inputs is not used.
  The row blocks tile the rows, so the kernel's result array is that function of the whole arguments.

  The three run claims come from the generated frames and the reference's generated run; the ideal pass rewrote
  nothing, so the idealization claim is trivial.
-/
import proofs.«402139_j46505905881421_3_alg».proof.Defs
import proofs.«402139_j46505905881421_3_alg».proof.Proof.Gen.Kernel
import proofs.«402139_j46505905881421_3_alg».proof.Proof.Gen.Kernel.Skeleton
import proofs.«402139_j46505905881421_3_alg».proof.Proof.Gen.Kernel.Launch
import proofs.«402139_j46505905881421_3_alg».proof.Proof.Gen.Kernel.Points
import proofs.«402139_j46505905881421_3_alg».proof.Proof.Gen.Kernel.Frame
import proofs.«402139_j46505905881421_3_alg».proof.Proof.Gen.KernelIdeal
import proofs.«402139_j46505905881421_3_alg».proof.Proof.Gen.KernelIdeal.Skeleton
import proofs.«402139_j46505905881421_3_alg».proof.Proof.Gen.KernelIdeal.Launch
import proofs.«402139_j46505905881421_3_alg».proof.Proof.Gen.KernelIdeal.Points
import proofs.«402139_j46505905881421_3_alg».proof.Proof.Gen.KernelIdeal.Frame
import proofs.«402139_j46505905881421_3_alg».proof.Proof.Gen.ReferenceIdeal
import proofs.«402139_j46505905881421_3_alg».proof.Proof.Gen.Pre_finite_inputs
import proofs.«402139_j46505905881421_3_alg».proof.Proof.Gen.KernelIdeal.Value
import proofs.«402139_j46505905881421_3_alg».proof.Proof.Gen.ReferenceIdeal.Run
import proofs.«402139_j46505905881421_3_alg».proof.Proof.Gen.ReferenceIdeal.Read
import proofs.«402139_j46505905881421_3_alg».proof.Proof.RefIsSpec
import proofs.«402139_j46505905881421_3_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The kernel read at the exact values runs and keeps its arguments. -/
theorem frame_kernel_ideal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's both end at the
    gated linear map of x, the gate, the weight without its unit axis, and the bias. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Hand.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
